-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_3 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_cst_5 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v14 : Ref sig .tc := ⟨.hbm, 33, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Ternary.lean ====
/-
  A dense layer with ternary weights, on the extended reals.

  The weight `w` is quantized entry by entry: above one half it counts as `1`, below minus one half as `-1`,
  otherwise as `0`. Row `r` of the input is contracted with column `c` of the quantized weights over all 4096
  inner positions; the result is scaled by `scale c`, shifted by `bias c` and clipped to `[-100, 100]`.

  The contraction over 4096 inner positions is also the sum, over 8 consecutive runs of 512 positions, of each
  run's partial contraction: addition of extended reals is commutative and associative, so regrouping a finite
  sum needs no finiteness of the terms (`sum_runs`).
-/
import Idealize.ShloMosaic.PureOps.Ideal
import Idealize.ShloMosaic.Lib.ValueIdx

noncomputable section

open scoped BigOperators

namespace TernaryDense

open Idealize.ShloMosaic Idealize.ShloMosaic.ValueIdx

/-- The quantizer: `1` above one half, `-1` below minus one half, `0` in between (the two thresholds included). -/
def tern (w : Ideal .f32) : Ideal .f32 :=
  Scalar.select (FloatOps.cmpf .ogt w (FloatOps.ofBits .f32 0x3F000000#32)) (FloatOps.ofBits .f32 0x3F800000#32)
    (Scalar.select (FloatOps.cmpf .olt w (FloatOps.ofBits .f32 0xBF000000#32)) (FloatOps.ofBits .f32 0xBF800000#32)
      (FloatOps.ofBits .f32 0x00000000#32))

/-- Scale, shift, then clip to `[-100, 100]`: the lower bound is applied first, the upper bound last. -/
def scaleShiftClip (y s b : Ideal .f32) : Ideal .f32 :=
  min (FloatOps.ofBits (F := Ideal) .f32 0x42C80000#32) (max (FloatOps.ofBits (F := Ideal) .f32 0xC2C80000#32) (y * s + b))

/-- The layer as one function of its four argument arrays: entry `(r, c)` of the result. -/
def dense (x : (⟨2, ![8192, 4096]⟩ : Shape).Idx → Ideal .f32) (w : (⟨2, ![4096, 4096]⟩ : Shape).Idx → Ideal .f32)
    (scale bias : (⟨1, ![4096]⟩ : Shape).Idx → Ideal .f32) : (⟨2, ![8192, 4096]⟩ : Shape).Idx → Ideal .f32 := fun i =>
  scaleShiftClip (∑ k : Fin 4096, x (ix2 (i 0) k) * tern (w (ix2 k (i 1)))) (scale (ix1 (i 1))) (bias (ix1 (i 1)))

/-- A sum over 4096 positions is the sum over 8 runs of the sums over each run's 512 positions. The run is
    named by a natural number read modulo 8, so that the statement needs no bound on it. -/
theorem sum_runs {β : Type} [AddCommMonoid β] (f : Fin 4096 → β) :
    ∑ k : Fin 4096, f k
      = ∑ s ∈ Finset.range 8, ∑ kk : Fin 512, f ⟨512 * (s % 8) + kk.val, by have := kk.isLt; omega⟩ := by
  rw [Finset.sum_range, ← (finProdFinEquiv : Fin 8 × Fin 512 ≃ Fin 4096).sum_comp, Fintype.sum_prod_type]
  refine Finset.sum_congr rfl fun s _ => Finset.sum_congr rfl fun kk _ => congrArg f (Fin.ext ?_)
  show kk.val + 512 * s.val = 512 * (s.val % 8) + kk.val
  have := s.isLt
  omega

end TernaryDense

end
-- ==== Proof.RefDense.lean ====
/-
  The reference computes the ternary dense layer: its result, read one stage at a time, is `TernaryDense.dense` of
  its four arguments. The weights pass through two nested selects (the quantizer), the product with the input is one
  contraction over the 4096 inner positions, scale and bias are broadcast along the rows, and the clip is a maximum
  with `-100` followed by a minimum with `100`.
-/
import proofs.«120413_j90434831385362_1_alg».proof.Proof.Gen.ReferenceIdeal.Read
import proofs.«120413_j90434831385362_1_alg».proof.Proof.Ternary

noncomputable section

open scoped BigOperators

namespace Cert.ReferenceIdeal.RefDense

open Cert.ReferenceIdeal Cert.ReferenceIdeal.Read Idealize.ShloMosaic Idealize.ShloMosaic.ValueIdx

/-- Row `r` of the input at inner position `k`. -/
theorem lidx_eq (i : S8192x4096.Idx) (k : Fin 4096) : lidx_main_v7 i k = ix2 (i 0) k :=
  funext fun a => Fin.ext (by match a with | ⟨0, _⟩ => rfl | ⟨1, _⟩ => rfl)

/-- Column `c` of the weights at inner position `k`. -/
theorem ridx_eq (i : S8192x4096.Idx) (k : Fin 4096) : ridx_main_v7 i k = ix2 k (i 1) :=
  funext fun a => Fin.ext (by match a with | ⟨0, _⟩ => rfl | ⟨1, _⟩ => rfl)

/-- Scale and bias are read at the column. -/
theorem sidx_eq (i : S8192x4096.Idx) : idx_main_v8 (idx_main_v9 i) = ix1 (i 1) :=
  funext fun a => Fin.ext (by match a with | ⟨0, _⟩ => rfl)

theorem bidx_eq (i : S8192x4096.Idx) : idx_main_v11 (idx_main_v12 i) = ix1 (i 1) :=
  funext fun a => Fin.ext (by match a with | ⟨0, _⟩ => rfl)

/-- The quantized weight at an index is the quantizer of the weight there. -/
theorem quantized_apply (x1 : S4096x4096.Idx → Ideal .f32) (j : S4096x4096.Idx) :
    val_main_v6 (F := Ideal) x1 j = TernaryDense.tern (x1 j) := by
  rw [val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply, val_main_cst_2_apply]
  rfl

/-- The reference's result is the layer. -/
theorem result_eq (x0 : S8192x4096.Idx → Ideal .f32) (x1 : S4096x4096.Idx → Ideal .f32) (x2 x3 : S4096.Idx → Ideal .f32) :
    val_main_v14 (F := Ideal) x0 x1 x2 x3 = TernaryDense.dense x0 x1 x2 x3 := by
  funext i
  rw [val_main_v14_apply, val_main_call2_v4_apply, val_main_call2_v3_apply, val_main_cst_5_apply,
    val_main_call2_v2_apply, val_main_call2_v1_apply, val_main_call2_v0_apply, val_main_cst_4_apply,
    val_main_v13_apply, val_main_v10_apply, val_main_v7_apply, val_main_v9_apply, val_main_v8_apply,
    val_main_v12_apply, val_main_v11_apply, sidx_eq, bidx_eq]
  simp only [quantized_apply, lidx_eq, ridx_eq]
  rfl

end Cert.ReferenceIdeal.RefDense

end
-- ==== Proof.Pieces.lean ====
/-
  What one grid point leaves behind, as the body's arithmetic of what it loads.

  At a point that starts a run over the inner axis the accumulator is first set to zero and then receives the
  point's partial product; at any later point it receives the partial product on top of what the point before
  left; at the last point of a run the output block is, on top of that, the scale-shift-clip of the finished
  accumulator. Each statement holds for every reading of the floats.
-/
import proofs.«120413_j90434831385362_1_alg».proof.Proof.Gen.KernelIdeal.Frame
import Idealize.ShloMosaic.Lib.Pipeline.Value

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offset of a store or load that spans its whole buffer. -/
theorem origin : (![0, 0] : Fin 2 → Nat) = fun _ => 0 := funext fun a => by fin_cases a <;> rfl

/-- First point of a run: the accumulator is zeroed, read back, and receives the partial product. -/
theorem scratch_first (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x512 .f32) (x1 : Vec F S512x1024 .f32) (x2 : Vec F S1x1024 .f32) (x3 : Vec F S1x1024 .f32) :
    sout0_A_0 c i arg3 harg3 arg4 harg4 arg5 harg5 arg6 harg6 arg7 harg7 arg8 harg8 hc0 hc1 x0 x1 x2 x3 = k0_pay2 x1 x0 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) origin]
  simp only [View.readAt_eq_ld, harg3.read_unread, harg4.read_unread, View.ld_unit_zero (S := S1024x512) origin,
    View.ld_unit_zero (S := S512x1024) origin, View.readCov_unit_zero (S := S1024x1024) _ origin]

/-- A middle point of a run: the accumulator receives the partial product on top of what it held. -/
theorem scratch_middle (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S512x1024 .f32) (x2 : Vec F S1x1024 .f32) (x3 : Vec F S1x1024 .f32) (acc : Vec F S1024x1024 .f32) :
    sout0_B_0 c i arg3 harg3 arg4 harg4 arg5 harg5 arg6 harg6 arg7 harg7 arg8 harg8 hc0 hc1 x0 x1 x2 x3 acc = k0_pay2 x1 x0 acc := by
  unfold sout0_B_0
  rw [View.read_writes_eq_canon _ _ _ (scover0_B_0 c i arg3 harg3 arg4 harg4 arg5 harg5 arg6 harg6 arg7 harg7 arg8 harg8 hc0 hc1 x0 x1 x2 x3 acc)]
  unfold kernelRun0_B
  dsimp only
  sl_unfold_words
  rw [View.canon_unit_zero (S := S1024x1024) origin]
  simp only [View.readAt_eq_ld, harg3.read_unread, harg4.read_unread, harg5.read_unread, harg6.read_unread, harg8.read_unread,
    View.ld_unit_zero (S := S1024x512) origin, View.ld_unit_zero (S := S512x1024) origin, View.ld_unit_zero (S := S1x1024) origin,
    View.ld_unit_zero (S := S1024x1024) origin, View.readCov_unit_zero (S := S1024x1024) _ origin]

/-- Last point of a run: the accumulator as at a middle point, -/
theorem scratch_last (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .f32) (x2 : Vec F S1x1024 .f32) (x3 : Vec F S1x1024 .f32) (acc : Vec F S1024x1024 .f32) :
    sout0_C_0 c i arg3 harg3 arg4 harg4 arg5 harg5 arg6 harg6 arg7 harg7 arg8 harg8 hc0 hc1 x0 x1 x2 x3 acc = k0_pay2 x1 x0 acc := by
  unfold sout0_C_0
  rw [View.read_writes_eq_canon _ _ _ (scover0_C_0 c i arg3 harg3 arg4 harg4 arg5 harg5 arg6 harg6 arg7 harg7 arg8 harg8 hc0 hc1 x0 x1 x2 x3 acc)]
  unfold kernelRun0_C
  dsimp only
  sl_unfold_words
  rw [View.canon_unit_zero (S := S1024x1024) origin]
  simp only [View.readAt_eq_ld, harg3.read_unread, harg4.read_unread, harg5.read_unread, harg6.read_unread, harg8.read_unread,
    View.ld_unit_zero (S := S1024x512) origin, View.ld_unit_zero (S := S512x1024) origin, View.ld_unit_zero (S := S1x1024) origin,
    View.ld_unit_zero (S := S1024x1024) origin, View.readCov_unit_zero (S := S1024x1024) _ origin]

/-- and the output block the scale-shift-clip of the finished accumulator. -/
theorem out_last (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .f32) (x2 : Vec F S1x1024 .f32) (x3 : Vec F S1x1024 .f32) (acc : Vec F S1024x1024 .f32) :
    out0_C_4 c i arg3 harg3 arg4 harg4 arg5 harg5 arg6 harg6 arg7 harg7 arg8 harg8 hc0 hc1 x0 x1 x2 x3 acc = k0_pay3 (k0_pay2 x1 x0 acc) x2 x3 := by
  unfold out0_C_4
  rw [View.read_writes_eq_canon _ _ _ (cover0_C_4 c i arg3 harg3 arg4 harg4 arg5 harg5 arg6 harg6 arg7 harg7 arg8 harg8 hc0 hc1 x0 x1 x2 x3 acc)]
  unfold kernelRun0_C
  dsimp only
  sl_unfold_words
  rw [View.canon_unit_zero (S := S1024x1024) origin]
  simp only [View.readAt_eq_ld, harg3.read_unread, harg4.read_unread, harg5.read_unread, harg6.read_unread, harg8.read_unread,
    View.ld_unit_zero (S := S1024x512) origin, View.ld_unit_zero (S := S512x1024) origin, View.ld_unit_zero (S := S1x1024) origin,
    View.ld_unit_zero (S := S1024x1024) origin, View.readCov_unit_zero (S := S1024x1024) _ origin]

end Cert.KernelIdeal.Pieces

end
-- ==== Proof.Payload.lean ====
/-
  The body's arithmetic, entry by entry, on the extended reals.

  The accumulator starts at zero. One point's step adds, at entry `(p, q)`, the contraction of row `p` of the
  point's input block with column `q` of its quantized weight block over the block's 512 inner positions: the
  narrowing of both operands to bfloat16 is the identity on extended reals and the matrix unit's product into a
  zero accumulator is the plain sum of products. The finishing step is the scale-shift-clip with the scale and the
  bias of column `q`.
-/
import proofs.«120413_j90434831385362_1_alg».proof.Proof.Gen.KernelIdeal.Skeleton
import proofs.«120413_j90434831385362_1_alg».proof.Proof.Ternary
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The matrix product's operand indices -/

theorem lhs_row (j : S1024x1024.Idx) (q : dot_S1024x512_S512x1024_S1024x1024_1_0_0_1_n_n.contr.Idx) :
    (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_inner (j : S1024x1024.Idx) (q : dot_S1024x512_S512x1024_S1024x1024_1_0_0_1_n_n.contr.Idx) :
    (dot_S1024x512_S512x1024_S1024x1024_1_0_0_1_n_n.lhsIdx j q 1).val = (q ⟨0, by decide⟩).val :=
  dot_S1024x512_S512x1024_S1024x1024_1_0_0_1_n_n.lhsIdx_val_of_single rfl j q
theorem rhs_inner (j : S1024x1024.Idx) (q : dot_S1024x512_S512x1024_S1024x1024_1_0_0_1_n_n.contr.Idx) :
    (dot_S1024x512_S512x1024_S1024x1024_1_0_0_1_n_n.rhsIdx j q 0).val = (q ⟨0, by decide⟩).val :=
  dot_S1024x512_S512x1024_S1024x1024_1_0_0_1_n_n.rhsIdx_val_of_single rfl j q
theorem rhs_col (j : S1024x1024.Idx) (q : dot_S1024x512_S512x1024_S1024x1024_1_0_0_1_n_n.contr.Idx) :
    (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The matrix unit's product into a zero accumulator, at an entry: row times column over the 512 inner positions. -/
theorem product_apply (l : FVec Ideal S1024x512 .bf16) (r : FVec Ideal S512x1024 .bf16) (j : S1024x1024.Idx) :
    matmul dot_S1024x512_S512x1024_S1024x1024_1_0_0_1_n_n none l r (constant S1024x1024 .f32 0x00000000#32) j
      = ∑ kk : Fin 512, l (ix2 (j 0) kk) * r (ix2 kk (j 1)) := by
  refine (Ideal.matmul_constant_zero_apply dot_S1024x512_S512x1024_S1024x1024_1_0_0_1_n_n none l r j).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx j ((contrEquiv1 dot_S1024x512_S512x1024_S1024x1024_1_0_0_1_n_n 512 rfl rfl).symm k) = ix2 (j 0) k := funext fun a => Fin.ext (by
    match a with
    | ⟨0, _⟩ => exact lhs_row _ _
    | ⟨1, _⟩ => exact (lhs_inner _ _).trans hk)
  have er : dot_S1024x512_S512x1024_S1024x1024_1_0_0_1_n_n.rhsIdx j ((contrEquiv1 dot_S1024x512_S512x1024_S1024x1024_1_0_0_1_n_n 512 rfl rfl).symm k) = ix2 k (j 1) := funext fun a => Fin.ext (by
    match a with
    | ⟨0, _⟩ => exact (rhs_inner _ _).trans hk
    | ⟨1, _⟩ => exact rhs_col _ _)
  rw [el, er]
  rfl

/-! ## The three payloads -/

/-- The reset value is zero everywhere. -/
theorem reset_apply (j : S1024x1024.Idx) : k0_pay1 (F := Ideal) j = 0 := by
  unfold k0_pay1
  rw [shapeCast_self]
  exact Ideal.ofBits_zero_f32

/-- One step: the accumulator plus the partial contraction over the block's inner positions. -/
theorem step_apply (w : Vec Ideal S512x1024 .f32) (x : Vec Ideal S1024x512 .f32) (acc : Vec Ideal S1024x1024 .f32)
    (j : S1024x1024.Idx) :
    k0_pay2 w x acc j = acc j + ∑ kk : Fin 512, x (ix2 (j 0) kk) * TernaryDense.tern (w (ix2 kk (j 1))) := by
  unfold k0_pay2
  rw [shapeCast_self]
  refine (addf_apply _ _ j).trans ?_
  refine congrArg (acc j + ·) ?_
  refine (product_apply _ _ j).trans ?_
  rfl

/-- The finishing step: scale, shift and clip with the column's scale and bias. -/
theorem finish_apply (acc : Vec Ideal S1024x1024 .f32) (s b : Vec Ideal S1x1024 .f32) (p q : Fin 1024) :
    k0_pay3 acc s b (ix2 p q) = TernaryDense.scaleShiftClip (acc (ix2 p q)) (s (ix2 0 q)) (b (ix2 0 q)) := by
  unfold k0_pay3
  have hs : broadcastTo S1024x1024 (shapeCast S1x1024 s shapeCasts_S1x1024_S1x1024) broadcasts_S1x1024_S1024x1024 (ix2 p q) = s (ix2 0 q) := by
    rw [shapeCast_self]
    exact broadcastTo_apply s broadcasts_S1x1024_S1024x1024 (ix2 p q) (ix2 0 q) (fun a => by
      match a with
      | ⟨0, _⟩ => rfl
      | ⟨1, _⟩ => rfl)
  have hb : broadcastTo S1024x1024 (shapeCast S1x1024 b shapeCasts_S1x1024_S1x1024) broadcasts_S1x1024_S1024x1024 (ix2 p q) = b (ix2 0 q) := by
    rw [shapeCast_self]
    exact broadcastTo_apply b broadcasts_S1x1024_S1024x1024 (ix2 p q) (ix2 0 q) (fun a => by
      match a with
      | ⟨0, _⟩ => rfl
      | ⟨1, _⟩ => rfl)
  show min _ (max _ (acc (ix2 p q) * _ + _)) = _
  rw [hs, hb]
  rfl

end Cert.KernelIdeal.Payload

end
-- ==== Proof.Layer.lean ====
/-
  The kernel's result array is the ternary dense layer of its arguments.

  The grid has 8 x 4 x 8 points; point `t` works on row block `t / 32`, column block `t / 8 % 4` and inner run
  `t % 8`. Over the 8 consecutive points of one (row block, column block) pair the accumulator is reset at the first
  and receives one run's partial contraction at each, so after the last it holds the sum of the 8 partial
  contractions; that point writes the scale-shift-clip of it into the output block, the only block written back
  for the pair. The 8 partial contractions over 512 inner positions each are the contraction over all 4096, and the
  32 pairs' blocks tile the result array.
-/
import proofs.«120413_j90434831385362_1_alg».proof.Proof.Gen.KernelIdeal.Value
import proofs.«120413_j90434831385362_1_alg».proof.Proof.Pieces
import proofs.«120413_j90434831385362_1_alg».proof.Proof.Payload
import Idealize.ShloMosaic.Lib.Pipeline.Value
import Idealize.ShloMosaic.Lib.StableHlo.Run

noncomputable section

open scoped BigOperators

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds, and the blocks of a point -/

/-- The input, the weights, and the scale and the bias as rows, as the region finds them. -/
abbrev xarr (c : Dev nD) : Vec Ideal S8192x4096 .f32 := V m c main_arg0
abbrev warr (c : Dev nD) : Vec Ideal S4096x4096 .f32 := V m c main_arg1
abbrev sarr (c : Dev nD) : Vec Ideal S1x4096 .f32 := V m c main_v0
abbrev barr (c : Dev nD) : Vec Ideal S1x4096 .f32 := V m c main_v1

/-- Their blocks at point `t`. -/
abbrev xblk (c : Dev nD) (t : Fin cfg0.N) : Vec Ideal S1024x512 .f32 := iblk m c 0 t
abbrev wblk (c : Dev nD) (t : Fin cfg0.N) : Vec Ideal S512x1024 .f32 := iblk m c 1 t
abbrev sblk (c : Dev nD) (t : Fin cfg0.N) : Vec Ideal S1x1024 .f32 := iblk m c 2 t
abbrev bblk (c : Dev nD) (t : Fin cfg0.N) : Vec Ideal S1x1024 .f32 := iblk m c 3 t

/-- Row `p` of point `n`'s row block, column `q` of its column block, position `kk` of its inner run, in the
    whole arrays. The point is any natural number: its three coordinates are read modulo their extents. -/
def rowOf (n : ℕ) (p : Fin 1024) : Fin 8192 := ⟨1024 * (n / 32 % 8) + p.val, by have := p.isLt; omega⟩
def colOf (n : ℕ) (q : Fin 1024) : Fin 4096 := ⟨1024 * (n / 8 % 4) + q.val, by have := q.isLt; omega⟩
def innerOf (n : ℕ) (kk : Fin 512) : Fin 4096 := ⟨512 * (n % 8) + kk.val, by have := kk.isLt; omega⟩

/-- The printed index maps, decided once over the grid. -/
theorem idx_facts : ∀ t : Fin cfg0.N,
    win0_0.index t (0 : Fin 2) = t.val / 32 % 8 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = 0 ∧ win0_3.index t (1 : Fin 2) = t.val / 8 % 4
    ∧ win0_4.index t (0 : Fin 2) = t.val / 32 % 8 ∧ win0_4.index t (1 : Fin 2) = t.val / 8 % 4 :=
  (by decide +kernel : ∀ t : Fin grid0.N, _)

/-- The input block's entry is the input's entry at the block's place. -/
theorem xblk_apply (c : Dev nD) (t : Fin cfg0.N) (p : Fin 1024) (kk : Fin 512) :
    xblk m c t (ix2 p kk) = xarr m c (ix2 (rowOf t.val p) (innerOf t.val kk)) := by
  obtain ⟨e0, e1, -⟩ := idx_facts t
  show V m c main_arg0 (((cfg0.win 0).blk t).view.emb (ix2 p kk)) = V m c main_arg0 _
  refine congrArg (V m c main_arg0) (funext fun a => Fin.ext ?_)
  match a with
  | ⟨0, _⟩ => show win0_0.index t (0 : Fin 2) * 1024 + 1 * p.val = 1024 * (t.val / 32 % 8) + p.val; omega
  | ⟨1, _⟩ => show win0_0.index t (1 : Fin 2) * 512 + 1 * kk.val = 512 * (t.val % 8) + kk.val; omega

/-- The weight block's entry likewise. -/
theorem wblk_apply (c : Dev nD) (t : Fin cfg0.N) (kk : Fin 512) (q : Fin 1024) :
    wblk m c t (ix2 kk q) = warr m c (ix2 (innerOf t.val kk) (colOf t.val q)) := by
  obtain ⟨-, -, e0, e1, -⟩ := idx_facts t
  show V m c main_arg1 (((cfg0.win 1).blk t).view.emb (ix2 kk q)) = V m c main_arg1 _
  refine congrArg (V m c main_arg1) (funext fun a => Fin.ext ?_)
  match a with
  | ⟨0, _⟩ => show win0_1.index t (0 : Fin 2) * 512 + 1 * kk.val = 512 * (t.val % 8) + kk.val; omega
  | ⟨1, _⟩ => show win0_1.index t (1 : Fin 2) * 1024 + 1 * q.val = 1024 * (t.val / 8 % 4) + q.val; omega

/-- The scale row's block and the bias row's block. -/
theorem sblk_apply (c : Dev nD) (t : Fin cfg0.N) (q : Fin 1024) :
    sblk m c t (ix2 0 q) = sarr m c (ix2 0 (colOf t.val q)) := by
  obtain ⟨-, -, -, -, e0, e1, -⟩ := idx_facts t
  show V m c main_v0 (((cfg0.win 2).blk t).view.emb (ix2 0 q)) = V m c main_v0 _
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 1024 + 1 * q.val = 1024 * (t.val / 8 % 4) + q.val; omega

theorem bblk_apply (c : Dev nD) (t : Fin cfg0.N) (q : Fin 1024) :
    bblk m c t (ix2 0 q) = barr m c (ix2 0 (colOf t.val q)) := by
  obtain ⟨-, -, -, -, -, -, e0, e1, -⟩ := idx_facts t
  show V m c main_v1 (((cfg0.win 3).blk t).view.emb (ix2 0 q)) = V m c main_v1 _
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 1024 + 1 * q.val = 1024 * (t.val / 8 % 4) + q.val; omega

/-! ## The host's two reshapes before the region -/

/-- The scale as a row is the scale: entry `(0, j)` of the row is entry `j`. -/
theorem sarr_apply (c : Dev nD) (j : Fin 4096) :
    sarr m c (ix2 0 j) = m ((c : Thread nD τ).loc main_arg2) (ix1 j) := by
  have e : (V m c main_v0 : S1x4096.Idx → EReal)
      = shapeCast S1x4096 (m ((c : Thread nD τ).loc main_arg2)) shapeCasts_S4096_S1x4096 := by
    dsimp only [Gen.V, Gen.hostOps0]; after_results; rfl
  show (V m c main_v0 : S1x4096.Idx → EReal) (ix2 0 j) = _
  rw [e, shapeCast_addUnit_apply]
  exact congrArg _ (funext fun a => by match a with | ⟨0, _⟩ => rfl)

/-- The bias likewise. -/
theorem barr_apply (c : Dev nD) (j : Fin 4096) :
    barr m c (ix2 0 j) = m ((c : Thread nD τ).loc main_arg3) (ix1 j) := by
  have e : (V m c main_v1 : S1x4096.Idx → EReal)
      = shapeCast S1x4096 (m ((c : Thread nD τ).loc main_arg3)) shapeCasts_S4096_S1x4096 := by
    dsimp only [Gen.V, Gen.hostOps0]; after_results; rfl
  show (V m c main_v1 : S1x4096.Idx → EReal) (ix2 0 j) = _
  rw [e, shapeCast_addUnit_apply]
  exact congrArg _ (funext fun a => by match a with | ⟨0, _⟩ => rfl)

/-! ## One point's step, and the accumulator over a run -/

/-- Point `n`'s addend at entry `y` of the accumulator: the contraction of the input's row with the quantized
    weights' column over the point's inner run. Defined for every natural number `n`. -/
def addend (c : Dev nD) (n : ℕ) (y : S1024x1024.Idx) : EReal :=
  ∑ kk : Fin 512, xarr m c (ix2 (rowOf n (y 0)) (innerOf n kk)) * TernaryDense.tern (warr m c (ix2 (innerOf n kk) (colOf n (y 1))))

/-- One step of the body at point `t` adds the point's addend. -/
theorem step_eq (c : Dev nD) (t : Fin cfg0.N) (acc : Vec Ideal S1024x1024 .f32) (y : S1024x1024.Idx) :
    k0_pay2 (wblk m c t) (xblk m c t) acc y = acc y + addend m c t.val y := by
  obtain ⟨p, q, rfl⟩ : ∃ (p q : Fin 1024), y = ix2 p q := ⟨y 0, y 1, eq_ix2 y⟩
  rw [Payload.step_apply]
  refine congrArg (acc (ix2 p q) + ·) (Finset.sum_congr rfl fun kk _ => ?_)
  show xblk m c t (ix2 p kk) * TernaryDense.tern (wblk m c t (ix2 kk q))
    = xarr m c (ix2 (rowOf t.val p) (innerOf t.val kk)) * TernaryDense.tern (warr m c (ix2 (innerOf t.val kk) (colOf t.val q)))
  rw [xblk_apply, wblk_apply]

/-- What the first point of a run leaves in the accumulator: zero plus its addend. -/
theorem first_eq (c : Dev nD) (n : ℕ) (hb : n < cfg0.N) (h0 : n % 8 = 0) (acc : Vec Ideal S1024x1024 .f32) (y : S1024x1024.Idx) :
    Value.scAt0_0 m c n hb acc y = 0 + addend m c n y := by
  have h1 : ¬n % 8 = 7 := by omega
  unfold Value.scAt0_0
  rw [dif_pos h0, dif_neg h1]
  refine (congrFun (Pieces.scratch_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) ((hcond0_0 ⟨n, hb⟩).mpr h0) (fun h => h1 ((hcond0_1 ⟨n, hb⟩).mp h)) (xblk m c ⟨n, hb⟩) (wblk m c ⟨n, hb⟩) (sblk m c ⟨n, hb⟩) (bblk m c ⟨n, hb⟩)) y).trans ?_
  rw [step_eq m c ⟨n, hb⟩, Payload.reset_apply]

/-- What a later point of a run leaves: what it found plus its addend. -/
theorem later_eq (c : Dev nD) (n : ℕ) (hb : n < cfg0.N) (h0 : ¬n % 8 = 0) (acc : Vec Ideal S1024x1024 .f32) (y : S1024x1024.Idx) :
    Value.scAt0_0 m c n hb acc y = acc y + addend m c n y := by
  unfold Value.scAt0_0
  rw [dif_neg h0]
  by_cases h1 : n % 8 = 7
  · rw [dif_pos h1]
    refine (congrFun (Pieces.scratch_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) (fun h => h0 ((hcond0_0 ⟨n, hb⟩).mp h)) ((hcond0_1 ⟨n, hb⟩).mpr h1) (xblk m c ⟨n, hb⟩) (wblk m c ⟨n, hb⟩) (sblk m c ⟨n, hb⟩) (bblk m c ⟨n, hb⟩) acc) y).trans ?_
    exact step_eq m c ⟨n, hb⟩ acc y
  · rw [dif_neg h1]
    refine (congrFun (Pieces.scratch_middle (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) (fun h => h0 ((hcond0_0 ⟨n, hb⟩).mp h)) (fun h => h1 ((hcond0_1 ⟨n, hb⟩).mp h)) (xblk m c ⟨n, hb⟩) (wblk m c ⟨n, hb⟩) (sblk m c ⟨n, hb⟩) (bblk m c ⟨n, hb⟩) acc) y).trans ?_
    exact step_eq m c ⟨n, hb⟩ acc y

/-- The accumulator after point `t`: the sum of the addends of its run's points up to `t`. -/
theorem acc_eq (c : Dev nD) (t : Fin cfg0.N) (y : S1024x1024.Idx) :
    (outsAt0 m c t.val t.isLt).2 y = 0 + ∑ s ∈ Finset.range (t.val % 8 + 1), addend m c (8 * (t.val / 8) + s) y := by
  rw [Value.soutsAt0_0_eq m c t]
  exact Pipeline.accAt_add_apply (β := EReal) _ _ (fun _ => 0) (addend m c) (8 * (t.val / 8)) 7
    (fun h i => first_eq m c _ h (by omega) _ i)
    (fun n h acc i hlt hle => later_eq m c n h (by omega) acc i)
    (t.val % 8) (by omega) _ y

/-! ## The output block of a run's last point -/

/-- The layer of the kernel's four arguments. -/
abbrev result (c : Dev nD) : Buf (Elt Ideal) ((c : Thread nD τ).loc main_v2) :=
  TernaryDense.dense (m ((c : Thread nD τ).loc main_arg0)) (m ((c : Thread nD τ).loc main_arg1))
    (m ((c : Thread nD τ).loc main_arg2)) (m ((c : Thread nD τ).loc main_arg3))

/-- At the last point of a run the output block is the finishing step of the accumulator that point leaves. -/
theorem out_eq (c : Dev nD) (t : Fin cfg0.N) (h0 : ¬t.val % 8 = 0) (h1 : t.val % 8 = 7) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
      = k0_pay3 (outsAt0 m c t.val t.isLt).2 (sblk m c t) (bblk m c t) := by
  have e : (outsAt0 m c t.val t.isLt).2 = k0_pay2 (wblk m c t) (xblk m c t) (outsAt0 m c (t.val - 1) (Nat.lt_of_le_of_lt (Nat.sub_le _ _) t.isLt)).2 := by
    rw [outsAt0_C m c t h0 h1]
    dsimp only
    exact Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (wblk m c t) (sblk m c t) (bblk m c t) _
  rw [e]
  exact Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (wblk m c t) (sblk m c t) (bblk m c t) _

/-- Its entry `(p, q)` is the layer's entry at the block's place: the run's 8 addends are the contraction over all
    4096 inner positions, regrouped. -/
theorem out_apply (c : Dev nD) (t : Fin cfg0.N) (h1 : t.val % 8 = 7) (p q : Fin 1024) :
    k0_pay3 (outsAt0 m c t.val t.isLt).2 (sblk m c t) (bblk m c t) (ix2 p q)
      = result m c (ix2 (rowOf t.val p) (colOf t.val q)) := by
  have hN : t.val < 256 := lt_of_lt_of_eq t.isLt N_0
  rw [Payload.finish_apply, acc_eq, sblk_apply, bblk_apply, sarr_apply, barr_apply, zero_add, h1]
  show _ = TernaryDense.scaleShiftClip _ _ _
  rw [TernaryDense.sum_runs]
  refine congrArg (fun z => TernaryDense.scaleShiftClip z _ _) (Finset.sum_congr rfl fun s hs => Finset.sum_congr rfl fun kk _ => ?_)
  have hs8 : s < 8 := Finset.mem_range.mp hs
  have er : rowOf (8 * (t.val / 8) + s) p = rowOf t.val p := Fin.ext (by show 1024 * ((8 * (t.val / 8) + s) / 32 % 8) + p.val = 1024 * (t.val / 32 % 8) + p.val; omega)
  have ec : colOf (8 * (t.val / 8) + s) q = colOf t.val q := Fin.ext (by show 1024 * ((8 * (t.val / 8) + s) / 8 % 4) + q.val = 1024 * (t.val / 8 % 4) + q.val; omega)
  have ei : innerOf (8 * (t.val / 8) + s) kk = ⟨512 * (s % 8) + kk.val, by have := kk.isLt; omega⟩ := Fin.ext (by show 512 * ((8 * (t.val / 8) + s) % 8) + kk.val = 512 * (s % 8) + kk.val; omega)
  have e1 : xarr m c (ix2 (rowOf (8 * (t.val / 8) + s) p) (innerOf (8 * (t.val / 8) + s) kk))
      = m ((c : Thread nD τ).loc main_arg0) (ix2 (rowOf t.val p) ⟨512 * (s % 8) + kk.val, by have := kk.isLt; omega⟩) := by
    rw [er, ei]; exact congrFun (V_main_arg0 m c) _
  have e2 : warr m c (ix2 (innerOf (8 * (t.val / 8) + s) kk) (colOf (8 * (t.val / 8) + s) q))
      = m ((c : Thread nD τ).loc main_arg1) (ix2 ⟨512 * (s % 8) + kk.val, by have := kk.isLt; omega⟩ (colOf t.val q)) := by
    rw [ec, ei]; exact congrFun (V_main_arg1 m c) _
  exact congrArg₂ (fun a b => a * TernaryDense.tern b) e1 e2

/-! ## The result array: the blocks written back tile it -/

/-- Entry `(p, q)` of point `t`'s output block sits at row `rowOf t p`, column `colOf t q` of the result array. -/
theorem place_eq (t : Fin cfg0.N) (p q : Fin 1024) :
    ((cfg0.win 4).blk t).view.emb (ix2 p q) = ix2 (rowOf t.val p) (colOf t.val q) := by
  obtain ⟨-, -, -, -, -, -, -, -, e0, e1⟩ := idx_facts t
  funext a
  apply Fin.ext
  match a with
  | ⟨0, _⟩ => show win0_4.index t (0 : Fin 2) * 1024 + 1 * p.val = 1024 * (t.val / 32 % 8) + p.val; omega
  | ⟨1, _⟩ => show win0_4.index t (1 : Fin 2) * 1024 + 1 * q.val = 1024 * (t.val / 8 % 4) + q.val; omega

/-- The output block of a run's last point, entry by entry, is the layer read through the block. -/
theorem block_eq (c : Dev nD) (t : Fin cfg0.N) (h1 : t.val % 8 = 7) (y : S1024x1024.Idx) :
    k0_pay3 (outsAt0 m c t.val t.isLt).2 (sblk m c t) (bblk m c t) y = result m c (((cfg0.win 4).blk t).view.emb y) := by
  obtain ⟨p, q, rfl⟩ : ∃ (p q : Fin 1024), y = ix2 p q := ⟨y 0, y 1, eq_ix2 y⟩
  rw [place_eq t p q]
  exact out_apply m c t h1 p q

/-- What a point writes back is its block of the layer: only the last point of a run writes back. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush0_4 t).mp hf
  have h0 : ¬t.val % 8 = 0 := by omega
  rw [Value.flushed4_C m c t h0 h1, out_eq m c t h0 h1]
  funext j
  exact block_eq m c t h1 j

/-- Every entry of the result array lies in the block of the last point of its (row block, column block) pair. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  obtain ⟨n, hn⟩ : ∃ n, n = 32 * ((i 0).val / 1024) + 8 * ((i 1).val / 1024) + 7 := ⟨_, rfl⟩
  have hlt : n < cfg0.N := by omega
  obtain ⟨-, -, -, -, -, -, -, -, e0, e1⟩ := idx_facts ⟨n, hlt⟩
  have e0' : win0_4.index ⟨n, hlt⟩ (0 : Fin 2) = n / 32 % 8 := e0
  have e1' : win0_4.index ⟨n, hlt⟩ (1 : Fin 2) = n / 8 % 4 := e1
  refine ⟨⟨n, hlt⟩, (flush0_4 ⟨n, hlt⟩).mpr (by show n % 8 = 7; omega), ?_⟩
  show i ∈ ((View.whole main_v2).slice (win0_4.rect ⟨n, hlt⟩)).set
  rw [View.set_slice_whole, Rect.mem_set_unit]
  intro a
  match a with
  | ⟨0, _⟩ =>
    show win0_4.index ⟨n, hlt⟩ (0 : Fin 2) * 1024 ≤ (i 0).val ∧ (i 0).val < win0_4.index ⟨n, hlt⟩ (0 : Fin 2) * 1024 + 1024
    omega
  | ⟨1, _⟩ =>
    show win0_4.index ⟨n, hlt⟩ (1 : Fin 2) * 1024 ≤ (i 1).val ∧ (i 1).val < win0_4.index ⟨n, hlt⟩ (1 : Fin 2) * 1024 + 1024
    omega

/-- The result array after the run is the layer of the arguments. -/
theorem final (c : Dev nD) : (dats m 0 c).arrAt 4 cfg0.N = result m c :=
  (dats m 0 c).arrAt_eq_of_cover 4 (result m c) (flushed_eq m c) cover

/-- The kernel's run: it terminates, the result array holds the layer, the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.lean ====
/-
  A dense layer with ternary weights: the weights are quantized entry by entry to `1` (above one half), `-1` (below
  minus one half) or `0`, the input is multiplied with them, and the product is scaled and shifted per column and
  clipped to `[-100, 100]`.

  The kernel walks an 8 x 4 x 8 grid. For each of the 32 (row block, column block) pairs it accumulates, over the 8
  runs of 512 inner positions, the partial products of a 1024 x 512 input block with the quantized 512 x 1024 weight
  block, and at the last run it writes the scale-shift-clip of the accumulator to the pair's 1024 x 1024 output
  block. The reference quantizes the whole weight array, takes one contraction over all 4096 inner positions, and
  applies the same scale, shift and clip.

  On the extended reals both compute `TernaryDense.dense` of the four arguments: the narrowing of the matrix unit's
  operands is the identity, the quantizer and the clip are the same selects, maxima and minima on both sides, and the
  sum over 4096 positions is the sum of the 8 runs' sums because addition is commutative and associative (no
  finiteness of the inputs is used). The precondition is therefore never opened. Nothing was rewritten between the
  kernel and its idealization, so that conjunct holds trivially.
-/
import proofs.«120413_j90434831385362_1_alg».proof.Defs
import proofs.«120413_j90434831385362_1_alg».proof.Proof.Gen.Kernel
import proofs.«120413_j90434831385362_1_alg».proof.Proof.Gen.Kernel.Skeleton
import proofs.«120413_j90434831385362_1_alg».proof.Proof.Gen.Kernel.Launch
import proofs.«120413_j90434831385362_1_alg».proof.Proof.Gen.Kernel.Points
import proofs.«120413_j90434831385362_1_alg».proof.Proof.Gen.Kernel.Frame
import proofs.«120413_j90434831385362_1_alg».proof.Proof.Gen.KernelIdeal
import proofs.«120413_j90434831385362_1_alg».proof.Proof.Gen.KernelIdeal.Skeleton
import proofs.«120413_j90434831385362_1_alg».proof.Proof.Gen.KernelIdeal.Launch
import proofs.«120413_j90434831385362_1_alg».proof.Proof.Gen.KernelIdeal.Points
import proofs.«120413_j90434831385362_1_alg».proof.Proof.Gen.KernelIdeal.Frame
import proofs.«120413_j90434831385362_1_alg».proof.Proof.Gen.ReferenceIdeal
import proofs.«120413_j90434831385362_1_alg».proof.Proof.Gen.Pre_finite_inputs
import proofs.«120413_j90434831385362_1_alg».proof.Proof.Gen.KernelIdeal.Value
import proofs.«120413_j90434831385362_1_alg».proof.Proof.Gen.ReferenceIdeal.Run
import proofs.«120413_j90434831385362_1_alg».proof.Proof.Gen.ReferenceIdeal.Read
import proofs.«120413_j90434831385362_1_alg».proof.Proof.RefDense
import proofs.«120413_j90434831385362_1_alg».proof.Proof.Layer
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of arguments that agree. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefDense.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
